-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S1x1024 : Shape := ⟨2, ![1, 1024]⟩
abbrev S256x1024 : Shape := ⟨2, ![256, 1024]⟩
abbrev S256x3072 : Shape := ⟨2, ![256, 3072]⟩

abbrev nBuf : Space → Nat
  | .hbm => 33
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x3072, .f32⟩
  | .hbm, ⟨20, _⟩ => ⟨S1024x3072, .bf16⟩
  | .hbm, ⟨21, _⟩ => ⟨S3072, .f32⟩
  | .hbm, ⟨22, _⟩ => ⟨S1x3072, .f32⟩
  | .hbm, ⟨23, _⟩ => ⟨S1024x3072, .f32⟩
  | .hbm, ⟨24, _⟩ => ⟨S1024x3072, .bf16⟩
  | .hbm, ⟨25, _⟩ => ⟨S3072, .f32⟩
  | .hbm, ⟨26, _⟩ => ⟨S1x3072, .f32⟩
  | .hbm, ⟨27, _⟩ => ⟨S1024x1024, .bf16⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x3072, .bf16⟩
  | .local _ .vmem, ⟨11, _⟩ => ⟨S1x3072, .f32⟩
  | .local _ .vmem, ⟨12, _⟩ => ⟨S1024x3072, .bf16⟩
  | .local _ .vmem, ⟨13, _⟩ => ⟨S1x3072, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x1024_S256x1024_1_0_0_1_n_n_wf : DotDims.WF S256x1024 S1024x1024 S256x1024 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x3072.size a ≤ S1024x3072.size a
  hwx0_7 : ∀ i : grid0.Coords, EltTy.bits .bf16 = 32 ∨ (Rect.block (s := S1024x3072) S1024x3072.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3072.size a ≤ S1x3072.size a
  hwx0_8 : ∀ i : grid0.Coords, EltTy.bits .f32 = 32 ∨ (Rect.block (s := S1x3072) S1x3072.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x3072.size a ≤ S1024x3072.size a
  hwx0_9 : ∀ i : grid0.Coords, EltTy.bits .bf16 = 32 ∨ (Rect.block (s := S1024x3072) S1024x3072.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S4096x1024.size a
  hwx0_12 : ∀ i : grid0.Coords, EltTy.bits .f32 = 32 ∨ (Rect.block (s := S4096x1024) S256x1024.size (cc0_transform_12 i) (hinb0_12 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1024x3072.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x3072 : Shape := ⟨2, ![1024, 3072]⟩
abbrev S3072 : Shape := ⟨1, ![3072]⟩
abbrev S4096x3072 : Shape := ⟨2, ![4096, 3072]⟩
abbrev S1x3072 : Shape := ⟨2, ![1, 3072]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x3072, .f32⟩
  | .hbm, ⟨29, _⟩ => ⟨S3072, .f32⟩
  | .hbm, ⟨30, _⟩ => ⟨S1024x3072, .f32⟩
  | .hbm, ⟨31, _⟩ => ⟨S3072, .f32⟩
  | .hbm, ⟨32, _⟩ => ⟨S4096x3072, .f32⟩
  | .hbm, ⟨33, _⟩ => ⟨S1x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S1x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_cst_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S4096x3072_0_1 : S1x3072.BroadcastsInDim S4096x3072 (![0, 1] : Fin 2 → Fin S4096x3072.rank)
  bcast_S_S4096x3072 : S_.BroadcastsInDim S4096x3072 (![] : Fin 0 → Fin S4096x3072.rank)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  dot_S4096x1024_S1024x1024_S4096x1024_1_0_0_1_n_n_wf : DotDims.WF S4096x1024 S1024x1024 S4096x1024 [1] [0] [0] [1] [] []
  dot_S4096x1024_S1024x3072_S4096x3072_1_0_0_1_n_n_wf : DotDims.WF S4096x1024 S1024x3072 S4096x3072 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x3072_S4096x3072_1_0_0_1_n_n : DotDims S4096x1024 S1024x3072 S4096x3072 where
  lhsContracting := [1]
  rhsContracting := [0]
  lhsNonContracting := [0]
  rhsNonContracting := [1]
  lhsBatch := []
  rhsBatch := []
  wf := dot_S4096x1024_S1024x3072_S4096x3072_1_0_0_1_n_n_wf

class Facts : Prop extends Facts₀ where

variable [Facts]
-- ==== Proof.KernelEntry.lean ====
/-
  What the one kernel region of @main finds, and what a run of it gives back about the arguments.

  @main first builds, on the host, the kernel's operands from the arguments: the three gate matrices set side by
  side along their columns and narrowed to bf16 (once for the input-side weights, once for the hidden-side ones), the
  three gate biases set end to end and given a leading unit axis (likewise twice), the two candidate matrices
  narrowed, the two candidate biases given a leading unit axis. None of these twelve operations writes an
  argument, so the region finds all nineteen arguments as launched (`V_main_arg0` … `V_main_arg18`).

  The region's grid has sixteen points, one per block of 256 batch rows. `iblk` is a window's block at a point, read
  off its array as the region finds it; an input window's staging buffer holds that block whenever the body runs
  (`before0_W_of`). `frame_of` turns a run of the region that ends with every array of the pipeline at what the
  proof data say, and every other buffer as found, into the statement that the nineteen arguments end unchanged: the
  three batch arrays are staged by windows 0, 1, 2 and read back through them; the sixteen weight and bias arguments
  are staged by no window (the windows stage the host's results instead).
-/
import proofs.«167227_j49349174231639_1_alg».proof.Proof.Gen.Kernel.Launch
import proofs.«167227_j49349174231639_1_alg».proof.Proof.Gen.Kernel.Skeleton
import proofs.«167227_j49349174231639_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the twelve host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is those host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetched it or an
    earlier one did (the block index has not moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether that point fetched it or an
    earlier one did (the block index has not moved since). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether that point fetched it or an
    earlier one did (the block index has not moved since). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether that point fetched it or an
    earlier one did (the block index has not moved since). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether that point fetched it or an
    earlier one did (the block index has not moved since). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether that point fetched it or an
    earlier one did (the block index has not moved since). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether that point fetched it or an
    earlier one did (the block index has not moved since). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether that point fetched it or an
    earlier one did (the block index has not moved since). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether that point fetched it or an
    earlier one did (the block index has not moved since). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether that point fetched it or an
    earlier one did (the block index has not moved since). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether that point fetched it or an
    earlier one did (the block index has not moved since). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the region -/

/-- From a run that ends with the pipeline's arrays at what the proof data compute and every other buffer as the
    region found it: the nineteen arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.Kernel.Entry

end
-- ==== Proof.KernelBody.lean ====
/-
  The kernel body at one block of 256 batch rows, and the run of the region.

  The body loads its eleven input buffers whole — the block's input, hidden and state rows, the two candidate
  matrices and biases, the two gate matrices and biases —, computes the candidate block, the gate block, the new state
  block and the new hidden block, and stores the new hidden block into output window 11's buffer and the new state block
  into output window 12's, each by ONE store that covers the buffer. (It also loads each output buffer just before
  storing into it; the loaded words are not used.) So after the body each output buffer holds that one stored value,
  a pure function of the eleven input blocks: `hOut` and `cOut` below, written over the body's arithmetic as the
  program's skeleton names it.

  With that, the pipeline's proof data are: every input window's buffer keeps its block, each output window's buffer
  ends at `hOut` / `cOut` of the point's input blocks, nothing else is touched. The body meets its obligation at every
  grid point, the region runs to its end from any launch memory, and the arguments end unchanged.
-/
import proofs.«167227_j49349174231639_1_alg».proof.Proof.Gen.Kernel.Launch
import proofs.«167227_j49349174231639_1_alg».proof.Proof.Gen.Kernel.Skeleton
import proofs.«167227_j49349174231639_1_alg».proof.Proof.Gen.Kernel.Points
import proofs.«167227_j49349174231639_1_alg».proof.Proof.KernelEntry
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel.Entry

/-! ## The body's accesses: every buffer whole -/

abbrev rB : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0
abbrev rG : Rect S1024x3072 := Rect.unit (s := S1024x3072) ![0, 0] S1024x3072.size inb_S1024x3072_S1024x3072_0_0
abbrev rg : Rect S1x3072 := Rect.unit (s := S1x3072) ![0, 0] S1x3072.size inb_S1x3072_S1x3072_0_0

/-! ## What the body leaves in each output buffer -/

/-- The candidate block, from the input and hidden blocks and the candidate's weights and biases. -/
def candBlk (x0 : Vec F S256x1024 .f32) (x1 : Vec F S256x1024 .f32) (x3 : Vec F S1024x1024 .bf16) (x4 : Vec F S1x1024 .f32)
    (x5 : Vec F S1024x1024 .bf16) (x6 : Vec F S1x1024 .f32) : FVec F S256x1024 .f32 :=
  k0_pay5 (View.ld x0 rB) (View.ld x1 rB) (View.ld x3 rW) (View.ld x4 rb) (View.ld x5 rW) (View.ld x6 rb)

/-- The gates' block before the second bias and the logistic function: input block times the input-side gate matrix,
    plus its bias, plus candidate block times the hidden-side gate matrix. -/
def gateBlk (x0 : Vec F S256x1024 .f32) (x1 : Vec F S256x1024 .f32) (x3 : Vec F S1024x1024 .bf16) (x4 : Vec F S1x1024 .f32)
    (x5 : Vec F S1024x1024 .bf16) (x6 : Vec F S1x1024 .f32) (x7 : Vec F S1024x3072 .bf16) (x8 : Vec F S1x3072 .f32)
    (x9 : Vec F S1024x3072 .bf16) : FVec F S256x3072 .f32 :=
  k0_pay6 (View.ld x0 rB) (View.ld x1 rB) (View.ld x3 rW) (View.ld x4 rb) (View.ld x5 rW) (View.ld x6 rb) (View.ld x7 rG) (View.ld x8 rg) (View.ld x9 rG)

/-- Output window 11's buffer after the body: the new hidden block. -/
def hOut (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1x1024 .f32) (x7 : Vec F S1024x3072 .bf16) (x8 : Vec F S1x3072 .f32) (x9 : Vec F S1024x3072 .bf16) (x10 : Vec F S1x3072 .f32) : Vec F S256x1024 .f32 :=
  View.canon [⟨rB, k0_pay3 (View.ld x2 rB) (candBlk x0 x1 x3 x4 x5 x6) (gateBlk x0 x1 x3 x4 x5 x6 x7 x8 x9) (View.ld x10 rg)⟩]

/-- Output window 12's buffer after the body: the new state block. -/
def cOut (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1x1024 .f32) (x7 : Vec F S1024x3072 .bf16) (x8 : Vec F S1x3072 .f32) (x9 : Vec F S1024x3072 .bf16) (x10 : Vec F S1x3072 .f32) : Vec F S256x1024 .f32 :=
  View.canon [⟨rB, k0_pay2 (View.ld x2 rB) (candBlk x0 x1 x3 x4 x5 x6) (gateBlk x0 x1 x3 x4 x5 x6 x7 x8 x9) (View.ld x10 rg)⟩]

/-- One whole-buffer store covers the buffer. -/
theorem coverB (p0 : Vec F S256x1024 .f32) (y : S256x1024.Idx) :
    ∃ pc ∈ ([⟨rB, p0⟩] : List (View.Piece (Elt F) S256x1024 .f32)), y ∈ pc.1.set :=
  View.cover_of_tiled [⟨rB, p0⟩] S256x1024.size (by rfl) y

/-! ## The body's triple -/

set_option maxHeartbeats 4000000 in
/-- The body on whole buffers, the inputs' at contents `x0 … x10` and the outputs' at anything, runs to a continuation
    that holds the inputs' as they were and the outputs' at `hOut` and `cOut` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S1024x3072 .bf16) (harg10 : arg10.IsWhole) (arg11 : Memref sig .tc .vmem S1x3072 .f32) (harg11 : arg11.IsWhole) (arg12 : Memref sig .tc .vmem S256x1024 .f32) (harg12 : arg12.IsWhole) (arg13 : Memref sig .tc .vmem S256x1024 .f32) (harg13 : arg13.IsWhole)
    (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1x1024 .f32) (x7 : Vec F S1024x3072 .bf16) (x8 : Vec F S1x3072 .f32) (x9 : Vec F S1024x3072 .bf16) (x10 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (hOut x0 x1 x2 x3 x4 x5 x6 x7 x8 x9 x10) ∗ owns (c : Thread nD τ) arg13 fullShare (cOut x0 x1 x2 x3 x4 x5 x6 x7 x8 x9 x10)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverB _)
  iexists _; isplitr
  swap; · iexact H12
  ipureintro
  exact View.read_writes_eq_canon _ _ _ (coverB _)

/-! ## The pipeline's proof data -/

/-- On core `c`: the arrays as the region finds them; after the body at point `t` each input window's buffer at its
    block and the two output windows' at `hOut` and `cOut` of the point's input blocks; nothing else touched, nothing
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hOut (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => cOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = hOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = cOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body's obligation at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- At any point the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the arguments -/

set_option backward.isDefEq.respectTransparency.types false in
/-- From any launch memory with zero counters every weakly fair execution of @main terminates, and ends with every
    array of the pipeline at what the proof data compute and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The nineteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Body

end
-- ==== Proof.KernelIdealEntry.lean ====
/-
  What the one kernel region of @main finds, and what a run of it gives back about the arguments.

  @main first builds, on the host, the kernel's operands from the arguments: the three gate matrices set side by
  side along their columns and narrowed to bf16 (once for the input-side weights, once for the hidden-side ones), the
  three gate biases set end to end and given a leading unit axis (likewise twice), the two candidate matrices
  narrowed, the two candidate biases given a leading unit axis. None of these twelve operations writes an
  argument, so the region finds all nineteen arguments as launched (`V_main_arg0` … `V_main_arg18`).

  The region's grid has sixteen points, one per block of 256 batch rows. `iblk` is a window's block at a point, read
  off its array as the region finds it; an input window's staging buffer holds that block whenever the body runs
  (`before0_W_of`). `frame_of` turns a run of the region that ends with every array of the pipeline at what the
  proof data say, and every other buffer as found, into the statement that the nineteen arguments end unchanged: the
  three batch arrays are staged by windows 0, 1, 2 and read back through them; the sixteen weight and bias arguments
  are staged by no window (the windows stage the host's results instead).
-/
import proofs.«167227_j49349174231639_1_alg».proof.Proof.Gen.KernelIdeal.Launch
import proofs.«167227_j49349174231639_1_alg».proof.Proof.Gen.KernelIdeal.Skeleton
import proofs.«167227_j49349174231639_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the twelve host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is those host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether that point fetched it or an
    earlier one did (the block index has not moved since). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether that point fetched it or an
    earlier one did (the block index has not moved since). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether that point fetched it or an
    earlier one did (the block index has not moved since). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether that point fetched it or an
    earlier one did (the block index has not moved since). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether that point fetched it or an
    earlier one did (the block index has not moved since). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether that point fetched it or an
    earlier one did (the block index has not moved since). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether that point fetched it or an
    earlier one did (the block index has not moved since). -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether that point fetched it or an
    earlier one did (the block index has not moved since). -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, whether that point fetched it or an
    earlier one did (the block index has not moved since). -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, whether that point fetched it or an
    earlier one did (the block index has not moved since). -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, whether that point fetched it or an
    earlier one did (the block index has not moved since). -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the region -/

/-- From a run that ends with the pipeline's arrays at what the proof data compute and every other buffer as the
    region found it: the nineteen arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

end Cert.KernelIdeal.Entry

end
-- ==== Proof.KernelIdealBody.lean ====
/-
  The kernel body at one block of 256 batch rows, and the run of the region.

  The body loads its eleven input buffers whole — the block's input, hidden and state rows, the two candidate
  matrices and biases, the two gate matrices and biases —, computes the candidate block, the gate block, the new state
  block and the new hidden block, and stores the new hidden block into output window 11's buffer and the new state block
  into output window 12's, each by ONE store that covers the buffer. (It also loads each output buffer just before
  storing into it; the loaded words are not used.) So after the body each output buffer holds that one stored value,
  a pure function of the eleven input blocks: `hOut` and `cOut` below, written over the body's arithmetic as the
  program's skeleton names it.

  With that, the pipeline's proof data are: every input window's buffer keeps its block, each output window's buffer
  ends at `hOut` / `cOut` of the point's input blocks, nothing else is touched. The body meets its obligation at every
  grid point, the region runs to its end from any launch memory, and the arguments end unchanged.
-/
import proofs.«167227_j49349174231639_1_alg».proof.Proof.Gen.KernelIdeal.Launch
import proofs.«167227_j49349174231639_1_alg».proof.Proof.Gen.KernelIdeal.Skeleton
import proofs.«167227_j49349174231639_1_alg».proof.Proof.Gen.KernelIdeal.Points
import proofs.«167227_j49349174231639_1_alg».proof.Proof.KernelIdealEntry
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Entry

/-! ## The body's accesses: every buffer whole -/

abbrev rB : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0
abbrev rb : Rect S1x1024 := Rect.unit (s := S1x1024) ![0, 0] S1x1024.size inb_S1x1024_S1x1024_0_0
abbrev rG : Rect S1024x3072 := Rect.unit (s := S1024x3072) ![0, 0] S1024x3072.size inb_S1024x3072_S1024x3072_0_0
abbrev rg : Rect S1x3072 := Rect.unit (s := S1x3072) ![0, 0] S1x3072.size inb_S1x3072_S1x3072_0_0

/-! ## What the body leaves in each output buffer -/

/-- The candidate block, from the input and hidden blocks and the candidate's weights and biases. -/
def candBlk (x0 : Vec F S256x1024 .f32) (x1 : Vec F S256x1024 .f32) (x3 : Vec F S1024x1024 .bf16) (x4 : Vec F S1x1024 .f32)
    (x5 : Vec F S1024x1024 .bf16) (x6 : Vec F S1x1024 .f32) : FVec F S256x1024 .f32 :=
  k0_pay5 (View.ld x0 rB) (View.ld x1 rB) (View.ld x3 rW) (View.ld x4 rb) (View.ld x5 rW) (View.ld x6 rb)

/-- The gates' block before the second bias and the logistic function: input block times the input-side gate matrix,
    plus its bias, plus candidate block times the hidden-side gate matrix. -/
def gateBlk (x0 : Vec F S256x1024 .f32) (x1 : Vec F S256x1024 .f32) (x3 : Vec F S1024x1024 .bf16) (x4 : Vec F S1x1024 .f32)
    (x5 : Vec F S1024x1024 .bf16) (x6 : Vec F S1x1024 .f32) (x7 : Vec F S1024x3072 .bf16) (x8 : Vec F S1x3072 .f32)
    (x9 : Vec F S1024x3072 .bf16) : FVec F S256x3072 .f32 :=
  k0_pay6 (View.ld x0 rB) (View.ld x1 rB) (View.ld x3 rW) (View.ld x4 rb) (View.ld x5 rW) (View.ld x6 rb) (View.ld x7 rG) (View.ld x8 rg) (View.ld x9 rG)

/-- Output window 11's buffer after the body: the new hidden block. -/
def hOut (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1x1024 .f32) (x7 : Vec F S1024x3072 .bf16) (x8 : Vec F S1x3072 .f32) (x9 : Vec F S1024x3072 .bf16) (x10 : Vec F S1x3072 .f32) : Vec F S256x1024 .f32 :=
  View.canon [⟨rB, k0_pay3 (View.ld x2 rB) (candBlk x0 x1 x3 x4 x5 x6) (gateBlk x0 x1 x3 x4 x5 x6 x7 x8 x9) (View.ld x10 rg)⟩]

/-- Output window 12's buffer after the body: the new state block. -/
def cOut (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1x1024 .f32) (x7 : Vec F S1024x3072 .bf16) (x8 : Vec F S1x3072 .f32) (x9 : Vec F S1024x3072 .bf16) (x10 : Vec F S1x3072 .f32) : Vec F S256x1024 .f32 :=
  View.canon [⟨rB, k0_pay2 (View.ld x2 rB) (candBlk x0 x1 x3 x4 x5 x6) (gateBlk x0 x1 x3 x4 x5 x6 x7 x8 x9) (View.ld x10 rg)⟩]

/-- One whole-buffer store covers the buffer. -/
theorem coverB (p0 : Vec F S256x1024 .f32) (y : S256x1024.Idx) :
    ∃ pc ∈ ([⟨rB, p0⟩] : List (View.Piece (Elt F) S256x1024 .f32)), y ∈ pc.1.set :=
  View.cover_of_tiled [⟨rB, p0⟩] S256x1024.size (by rfl) y

/-! ## The body's triple -/

set_option maxHeartbeats 4000000 in
/-- The body on whole buffers, the inputs' at contents `x0 … x10` and the outputs' at anything, runs to a continuation
    that holds the inputs' as they were and the outputs' at `hOut` and `cOut` of the inputs'. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S1024x3072 .bf16) (harg10 : arg10.IsWhole) (arg11 : Memref sig .tc .vmem S1x3072 .f32) (harg11 : arg11.IsWhole) (arg12 : Memref sig .tc .vmem S256x1024 .f32) (harg12 : arg12.IsWhole) (arg13 : Memref sig .tc .vmem S256x1024 .f32) (harg13 : arg13.IsWhole)
    (x0 : Vec F S256x1024 .f32) (x1 : Vec F S256x1024 .f32) (x2 : Vec F S256x1024 .f32) (x3 : Vec F S1024x1024 .bf16) (x4 : Vec F S1x1024 .f32) (x5 : Vec F S1024x1024 .bf16) (x6 : Vec F S1x1024 .f32) (x7 : Vec F S1024x3072 .bf16) (x8 : Vec F S1x3072 .f32) (x9 : Vec F S1024x3072 .bf16) (x10 : Vec F S1x3072 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (hOut x0 x1 x2 x3 x4 x5 x6 x7 x8 x9 x10) ∗ owns (c : Thread nD τ) arg13 fullShare (cOut x0 x1 x2 x3 x4 x5 x6 x7 x8 x9 x10)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverB _)
  iexists _; isplitr
  swap; · iexact H12
  ipureintro
  exact View.read_writes_eq_canon _ _ _ (coverB _)

/-! ## The pipeline's proof data -/

/-- On core `c`: the arrays as the region finds them; after the body at point `t` each input window's buffer at its
    block and the two output windows' at `hOut` and `cOut` of the point's input blocks; nothing else touched, nothing
    owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hOut (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => cOut (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = hOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = cOut (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body's obligation at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- At any point the input buffers hold their blocks, so the body's triple applies; the rest passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the arguments -/

set_option backward.isDefEq.respectTransparency.types false in
/-- From any launch memory with zero counters every weakly fair execution of @main terminates, and ends with every
    array of the pipeline at what the proof data compute and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The nineteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Body

end
-- ==== Proof.KernelIdealOperands.lean ====
/-
  What the region's eight weight and bias windows hold, in terms of the arguments, at the ideal instance.

  Before the region the host prepares the kernel's operands. At the ideal instance a change of float format is the
  identity, so: the two candidate matrices reach the kernel as they are; the two candidate biases with a leading
  unit axis; the gates' input-side and hidden-side matrices are the three gate arguments of that side set side by side
  along the columns (`gateMatX`, `gateMatH`); the gates' biases are the three bias arguments of that side set end to end
  (`gateBiasX`, `gateBiasH`), again with a leading unit axis. Each window's array is read here at an index.
-/
import proofs.«167227_j49349174231639_1_alg».proof.Proof.KernelIdealEntry
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.Operands

open Idealize.ShloMosaic Idealize.ShloMosaic.TcCoe Idealize.SL.Sem Idealize.ShloMosaic.StableHlo Idealize.ShloMosaic.ValueIdx
open Cert.KernelIdeal Cert.KernelIdeal.Gen Cert.KernelIdeal.Entry

variable (m : (ℓ : Loc nD τ sig) → Buf (Elt Ideal) ℓ) (c : Dev nD)

/-- The three input-side gate matrices side by side. -/
def gateMatX : FVec Ideal S1024x3072 .f32 :=
  concatenate S1024x3072 1 [⟨S1024x1024, (m ((c : Thread nD τ).loc main_arg7))⟩, ⟨S1024x1024, (m ((c : Thread nD τ).loc main_arg11))⟩, ⟨S1024x1024, (m ((c : Thread nD τ).loc main_arg15))⟩] concatenates_S1024x1024_S1024x1024_S1024x1024_S1024x3072_d1
/-- The three hidden-side gate matrices side by side. -/
def gateMatH : FVec Ideal S1024x3072 .f32 :=
  concatenate S1024x3072 1 [⟨S1024x1024, (m ((c : Thread nD τ).loc main_arg9))⟩, ⟨S1024x1024, (m ((c : Thread nD τ).loc main_arg13))⟩, ⟨S1024x1024, (m ((c : Thread nD τ).loc main_arg17))⟩] concatenates_S1024x1024_S1024x1024_S1024x1024_S1024x3072_d1
/-- The three input-side gate biases end to end. -/
def gateBiasX : FVec Ideal S3072 .f32 :=
  concatenate S3072 0 [⟨S1024, (m ((c : Thread nD τ).loc main_arg8))⟩, ⟨S1024, (m ((c : Thread nD τ).loc main_arg12))⟩, ⟨S1024, (m ((c : Thread nD τ).loc main_arg16))⟩] concatenates_S1024_S1024_S1024_S3072_d0
/-- The three hidden-side gate biases end to end. -/
def gateBiasH : FVec Ideal S3072 .f32 :=
  concatenate S3072 0 [⟨S1024, (m ((c : Thread nD τ).loc main_arg10))⟩, ⟨S1024, (m ((c : Thread nD τ).loc main_arg14))⟩, ⟨S1024, (m ((c : Thread nD τ).loc main_arg18))⟩] concatenates_S1024_S1024_S1024_S3072_d0

/-! ## The arrays whole -/

theorem candMatX_eq : (V m c main_v8 : S1024x1024.Idx → EReal) = truncf (F := Ideal) .bf16 (m ((c : Thread nD τ).loc main_arg3)) bitsLt_bf16_f32 := by
  dsimp only [V, hostOps0]; after_results
theorem candMatH_eq : (V m c main_v9 : S1024x1024.Idx → EReal) = truncf (F := Ideal) .bf16 (m ((c : Thread nD τ).loc main_arg5)) bitsLt_bf16_f32 := by
  dsimp only [V, hostOps0]; after_results
theorem candBiasX_eq : (V m c main_v10 : S1x1024.Idx → EReal) = shapeCast S1x1024 (m ((c : Thread nD τ).loc main_arg4)) shapeCasts_S1024_S1x1024 := by
  dsimp only [V, hostOps0]; after_results; rfl
theorem candBiasH_eq : (V m c main_v11 : S1x1024.Idx → EReal) = shapeCast S1x1024 (m ((c : Thread nD τ).loc main_arg6)) shapeCasts_S1024_S1x1024 := by
  dsimp only [V, hostOps0]; after_results; rfl
theorem gateMatX_eq : (V m c main_v1 : S1024x3072.Idx → EReal) = truncf (F := Ideal) .bf16 (gateMatX m c) bitsLt_bf16_f32 := by
  dsimp only [V, hostOps0]; after_results; rfl
theorem gateMatH_eq : (V m c main_v5 : S1024x3072.Idx → EReal) = truncf (F := Ideal) .bf16 (gateMatH m c) bitsLt_bf16_f32 := by
  dsimp only [V, hostOps0]; after_results; rfl
theorem gateBiasX_eq : (V m c main_v3 : S1x3072.Idx → EReal) = shapeCast S1x3072 (gateBiasX m c) shapeCasts_S3072_S1x3072 := by
  dsimp only [V, hostOps0]; after_results; rfl
theorem gateBiasH_eq : (V m c main_v7 : S1x3072.Idx → EReal) = shapeCast S1x3072 (gateBiasH m c) shapeCasts_S3072_S1x3072 := by
  dsimp only [V, hostOps0]; after_results; rfl

/-! ## The arrays at an index -/

theorem candMatX_at (k j : Fin 1024) : (V m c main_v8 : S1024x1024.Idx → EReal) (ix2 k j) = (m ((c : Thread nD τ).loc main_arg3)) (ix2 k j) := by
  rw [candMatX_eq]; rfl
theorem candMatH_at (k j : Fin 1024) : (V m c main_v9 : S1024x1024.Idx → EReal) (ix2 k j) = (m ((c : Thread nD τ).loc main_arg5)) (ix2 k j) := by
  rw [candMatH_eq]; rfl
theorem candBiasX_at (j : Fin 1024) : (V m c main_v10 : S1x1024.Idx → EReal) (ix2 (0 : Fin 1) j) = (m ((c : Thread nD τ).loc main_arg4)) (ix1 j) := by
  rw [candBiasX_eq]; exact shapeCast_a_1a_apply _ _ _ _
theorem candBiasH_at (j : Fin 1024) : (V m c main_v11 : S1x1024.Idx → EReal) (ix2 (0 : Fin 1) j) = (m ((c : Thread nD τ).loc main_arg6)) (ix1 j) := by
  rw [candBiasH_eq]; exact shapeCast_a_1a_apply _ _ _ _
theorem gateMatX_at (k : Fin 1024) (j : Fin 3072) : (V m c main_v1 : S1024x3072.Idx → EReal) (ix2 k j) = gateMatX m c (ix2 k j) := by
  rw [gateMatX_eq]; rfl
theorem gateMatH_at (k : Fin 1024) (j : Fin 3072) : (V m c main_v5 : S1024x3072.Idx → EReal) (ix2 k j) = gateMatH m c (ix2 k j) := by
  rw [gateMatH_eq]; rfl
theorem gateBiasX_at (j : Fin 3072) : (V m c main_v3 : S1x3072.Idx → EReal) (ix2 (0 : Fin 1) j) = gateBiasX m c (ix1 j) := by
  rw [gateBiasX_eq]; exact shapeCast_a_1a_apply _ _ _ _
theorem gateBiasH_at (j : Fin 3072) : (V m c main_v7 : S1x3072.Idx → EReal) (ix2 (0 : Fin 1) j) = gateBiasH m c (ix1 j) := by
  rw [gateBiasH_eq]; exact shapeCast_a_1a_apply _ _ _ _

end Cert.KernelIdeal.Operands

end
-- ==== Proof.Cell.lean ====
/-
  The cell's arithmetic, one batch row at a time, on the extended reals.

  A batch row carries an input row `x`, a hidden row `h` and a state row `c`, each of 1024 entries. The candidate
  row is the affine image `((x·A + a) + h·B) + b` of the input and hidden rows; the three gates, laid side by side
  as one row of 3072 entries, are the logistic function of the SAME affine form taken of the input row and the
  CANDIDATE row (not of the old hidden row). With `i`, `o`, `f` the three thirds of the gate row,
  the new state is `f·c + i·tanh(candidate)` and the new hidden row `tanh(new state)·o`.

  Every sum is written in the one order both programs use, so that no law of the extended reals is needed to compare
  them: `((Σₖ xₖ·Aₖⱼ + aⱼ) + Σₖ hₖ·Bₖⱼ) + bⱼ`. The weights enter as functions of (row, column) and the biases as
  functions of the column, so the same definitions serve a block of 256 batch rows and the whole batch of 4096.
-/
import Idealize.ShloMosaic.PureOps.Ideal
import Idealize.ShloMosaic.Lib.ValueIdx

noncomputable section

open scoped BigOperators

namespace Cert.Cell

open Idealize.ShloMosaic

/-- `((x·A + a) + h·B) + b` at column `j`: two contractions over the 1024 entries of a row and two biases, added left
    to right. -/
def affine2 {n : Nat} (x h : Fin 1024 → EReal) (A B : Fin 1024 → Fin n → EReal) (a b : Fin n → EReal) (j : Fin n) : EReal :=
  (((∑ k : Fin 1024, x k * A k j) + a j) + ∑ k : Fin 1024, h k * B k j) + b j

/-- The weights and biases of the cell: the candidate's two square matrices and biases, and the gates' two
    matrices of 3072 columns (input, output and forget gate side by side) and their biases. -/
structure Params where
  Wxc : Fin 1024 → Fin 1024 → EReal
  Whc : Fin 1024 → Fin 1024 → EReal
  bxc : Fin 1024 → EReal
  bhc : Fin 1024 → EReal
  Wxg : Fin 1024 → Fin 3072 → EReal
  Whg : Fin 1024 → Fin 3072 → EReal
  bxg : Fin 3072 → EReal
  bhg : Fin 3072 → EReal

variable (P : Params) (x h c : Fin 1024 → EReal)

/-- The candidate row. -/
def cand : Fin 1024 → EReal := affine2 x h P.Wxc P.Whc P.bxc P.bhc

/-- The gates' pre-activation row: the same affine form of the input row and the candidate row. -/
def gatePre : Fin 3072 → EReal := affine2 x (cand P x h) P.Wxg P.Whg P.bxg P.bhg

/-- The gate row. -/
def gate (j : Fin 3072) : EReal := Ideal.logistic (gatePre P x h j)

/-- Column `j` of the input gate, the first third of the gate row. -/
def gi (j : Fin 1024) : EReal := gate P x h ⟨j.val, by omega⟩
/-- Column `j` of the output gate, the second third. -/
def go (j : Fin 1024) : EReal := gate P x h ⟨1024 + j.val, by omega⟩
/-- Column `j` of the forget gate, the last third. -/
def gf (j : Fin 1024) : EReal := gate P x h ⟨2048 + j.val, by omega⟩

/-- The new state row: `f·c + i·tanh(candidate)`. -/
def cNew (j : Fin 1024) : EReal := gf P x h j * c j + gi P x h j * Ideal.tanh (cand P x h j)

/-- The new hidden row: `tanh(new state)·o`. -/
def hNew (j : Fin 1024) : EReal := Ideal.tanh (cNew P x h c j) * go P x h j

/-! ## Reading the cell's operands off arrays -/

open Idealize.ShloMosaic.ValueIdx

/-- A matrix held as a rank-2 array, read by (row, column). -/
abbrev mat {a b : Nat} (W : (⟨2, ![a, b]⟩ : Shape).Idx → EReal) (k : Fin a) (j : Fin b) : EReal := W (ix2 k j)
/-- A bias held as a rank-1 array, read by column. -/
abbrev vec {n : Nat} (v : (⟨1, ![n]⟩ : Shape).Idx → EReal) (j : Fin n) : EReal := v (ix1 j)
/-- A bias held as a rank-2 array with a leading unit axis, read by column. -/
abbrev vec1 {n : Nat} (v : (⟨2, ![1, n]⟩ : Shape).Idx → EReal) (j : Fin n) : EReal := v (ix2 (0 : Fin 1) j)
/-- Row `r` of a batch of rows. -/
abbrev rowOf {B : Nat} (x : (⟨2, ![B, 1024]⟩ : Shape).Idx → EReal) (r : Fin B) (k : Fin 1024) : EReal := x (ix2 r k)

/-- The cell's parameters when the biases are held as rank-1 arrays (the reference's operands). -/
def paramsVec (Wxc Whc : (⟨2, ![1024, 1024]⟩ : Shape).Idx → EReal) (bxc bhc : (⟨1, ![1024]⟩ : Shape).Idx → EReal)
    (Wxg Whg : (⟨2, ![1024, 3072]⟩ : Shape).Idx → EReal) (bxg bhg : (⟨1, ![3072]⟩ : Shape).Idx → EReal) : Params :=
  ⟨mat Wxc, mat Whc, vec bxc, vec bhc, mat Wxg, mat Whg, vec bxg, vec bhg⟩

/-- The cell's parameters when the biases are held with a leading unit axis (the kernel's operands). -/
def paramsVec1 (Wxc Whc : (⟨2, ![1024, 1024]⟩ : Shape).Idx → EReal) (bxc bhc : (⟨2, ![1, 1024]⟩ : Shape).Idx → EReal)
    (Wxg Whg : (⟨2, ![1024, 3072]⟩ : Shape).Idx → EReal) (bxg bhg : (⟨2, ![1, 3072]⟩ : Shape).Idx → EReal) : Params :=
  ⟨mat Wxc, mat Whc, vec1 bxc, vec1 bhc, mat Wxg, mat Whg, vec1 bxg, vec1 bhg⟩

end Cert.Cell

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KernelRows.lean ====
/-
  The kernel body's two stored values, read one batch row of the block at a time.
-/
import proofs.«167227_j49349174231639_1_alg».proof.Proof.Gen.KernelIdeal.Skeleton
import proofs.«167227_j49349174231639_1_alg».proof.Proof.Cell
import proofs.«167227_j49349174231639_1_alg».proof.Proof.LibContraction
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelRows

open Cert.KernelIdeal Cert.KernelIdeal.Gen Idealize.ShloMosaic Idealize.ShloMosaic.ValueIdx Cert.Cell

open Cert.Lib.Contraction

/-- At output entry (p, q) and contraction position k the first product's left operand is read at (p, k). -/
theorem d1_lhs (p : Fin 256) (q : Fin 1024) (k : Fin 1024) :
    dot_S256x1024_S1024x1024_S256x1024_1_0_0_1_n_n.lhsIdx (ix2 p q)
      ((contrFin dot_S256x1024_S1024x1024_S256x1024_1_0_0_1_n_n rfl 1024 rfl).symm k) = ix2 p k := by
  funext a
  refine Fin.ext ?_
  match a with
  | ⟨0, _⟩ => exact lhs_free dot_S256x1024_S1024x1024_S256x1024_1_0_0_1_n_n rfl rfl (ix2 p q) _ (by decide)
  | ⟨1, _⟩ => exact lhs_contracted dot_S256x1024_S1024x1024_S256x1024_1_0_0_1_n_n rfl 1024 rfl (ix2 p q) k

/-- … and its right operand at (k, q). -/
theorem d1_rhs (p : Fin 256) (q : Fin 1024) (k : Fin 1024) :
    dot_S256x1024_S1024x1024_S256x1024_1_0_0_1_n_n.rhsIdx (ix2 p q)
      ((contrFin dot_S256x1024_S1024x1024_S256x1024_1_0_0_1_n_n rfl 1024 rfl).symm k) = ix2 k q := by
  funext a
  refine Fin.ext ?_
  match a with
  | ⟨0, _⟩ => exact rhs_contracted dot_S256x1024_S1024x1024_S256x1024_1_0_0_1_n_n rfl rfl 1024 rfl (ix2 p q) k
  | ⟨1, _⟩ => exact rhs_free dot_S256x1024_S1024x1024_S256x1024_1_0_0_1_n_n rfl rfl rfl rfl (ix2 p q) _ (by decide)

/-- The 256×1024 by 1024×1024 product into the zero accumulator, at (p, q): the row-by-column sum. -/
theorem matmul_d1 (l : FVec Ideal S256x1024 .bf16) (r : FVec Ideal S1024x1024 .bf16) (p : Fin 256) (q : Fin 1024) :
    matmul (F := Ideal) dot_S256x1024_S1024x1024_S256x1024_1_0_0_1_n_n none l r (constant (F := Ideal) S256x1024 .f32 0x00000000#32) (ix2 p q)
      = ∑ k : Fin 1024, l (ix2 p k) * r (ix2 k q) := by
  refine (Ideal.matmul_constant_zero_apply _ none l r (ix2 p q)).trans ?_
  refine (sum_contr dot_S256x1024_S1024x1024_S256x1024_1_0_0_1_n_n rfl 1024 rfl _).trans ?_
  refine Finset.sum_congr rfl fun k _ => ?_
  rw [d1_lhs, d1_rhs]

/-- At output entry (p, q) and contraction position k the wide product's left operand is read at (p, k). -/
theorem d3_lhs (p : Fin 256) (q : Fin 3072) (k : Fin 1024) :
    dot_S256x1024_S1024x3072_S256x3072_1_0_0_1_n_n.lhsIdx (ix2 p q)
      ((contrFin dot_S256x1024_S1024x3072_S256x3072_1_0_0_1_n_n rfl 1024 rfl).symm k) = ix2 p k := by
  funext a
  refine Fin.ext ?_
  match a with
  | ⟨0, _⟩ => exact lhs_free dot_S256x1024_S1024x3072_S256x3072_1_0_0_1_n_n rfl rfl (ix2 p q) _ (by decide)
  | ⟨1, _⟩ => exact lhs_contracted dot_S256x1024_S1024x3072_S256x3072_1_0_0_1_n_n rfl 1024 rfl (ix2 p q) k

/-- … and its right operand at (k, q). -/
theorem d3_rhs (p : Fin 256) (q : Fin 3072) (k : Fin 1024) :
    dot_S256x1024_S1024x3072_S256x3072_1_0_0_1_n_n.rhsIdx (ix2 p q)
      ((contrFin dot_S256x1024_S1024x3072_S256x3072_1_0_0_1_n_n rfl 1024 rfl).symm k) = ix2 k q := by
  funext a
  refine Fin.ext ?_
  match a with
  | ⟨0, _⟩ => exact rhs_contracted dot_S256x1024_S1024x3072_S256x3072_1_0_0_1_n_n rfl rfl 1024 rfl (ix2 p q) k
  | ⟨1, _⟩ => exact rhs_free dot_S256x1024_S1024x3072_S256x3072_1_0_0_1_n_n rfl rfl rfl rfl (ix2 p q) _ (by decide)

/-- The 256×1024 by 1024×3072 product into the zero accumulator, at (p, q): the row-by-column sum. -/
theorem matmul_d3 (l : FVec Ideal S256x1024 .bf16) (r : FVec Ideal S1024x3072 .bf16) (p : Fin 256) (q : Fin 3072) :
    matmul (F := Ideal) dot_S256x1024_S1024x3072_S256x3072_1_0_0_1_n_n none l r (constant (F := Ideal) S256x3072 .f32 0x00000000#32) (ix2 p q)
      = ∑ k : Fin 1024, l (ix2 p k) * r (ix2 k q) := by
  refine (Ideal.matmul_constant_zero_apply _ none l r (ix2 p q)).trans ?_
  refine (sum_contr dot_S256x1024_S1024x3072_S256x3072_1_0_0_1_n_n rfl 1024 rfl _).trans ?_
  refine Finset.sum_congr rfl fun k _ => ?_
  rw [d3_lhs, d3_rhs]

variable (x0 x1 x2 : Vec Ideal S256x1024 .f32) (w3 : Vec Ideal S1024x1024 .bf16) (w4 : Vec Ideal S1x1024 .f32)
  (w5 : Vec Ideal S1024x1024 .bf16) (w6 : Vec Ideal S1x1024 .f32) (w7 : Vec Ideal S1024x3072 .bf16) (w8 : Vec Ideal S1x3072 .f32)
  (w9 : Vec Ideal S1024x3072 .bf16) (w10 : Vec Ideal S1x3072 .f32)

/-- The cell's parameters as the kernel body holds them: every matrix whole, every bias with a leading unit axis. -/
def params : Params := paramsVec1 w3 w5 w4 w6 w7 w9 w8 w10

/-- The candidate block at (p, j) is the cell's candidate row of the block's row p at column j. -/
theorem cand_row (p : Fin 256) (j : Fin 1024) :
    k0_pay5 (F := Ideal) x0 x1 w3 w4 w5 w6 (ix2 p j)
      = cand (params w3 w4 w5 w6 w7 w8 w9 w10) (rowOf x0 p) (rowOf x1 p) j := by
  unfold k0_pay5 k0_pay4
  simp only [shapeCast_self]
  show ((matmul (F := Ideal) dot_S256x1024_S1024x1024_S256x1024_1_0_0_1_n_n none (truncf .bf16 x0 bitsLt_bf16_f32) w3
            (constant (F := Ideal) S256x1024 .f32 0x00000000#32) (ix2 p j)
          + broadcastTo S256x1024 w4 broadcasts_S1x1024_S256x1024 (ix2 p j))
        + matmul (F := Ideal) dot_S256x1024_S1024x1024_S256x1024_1_0_0_1_n_n none (truncf .bf16 x1 bitsLt_bf16_f32) w5
            (constant (F := Ideal) S256x1024 .f32 0x00000000#32) (ix2 p j))
      + broadcastTo S256x1024 w6 broadcasts_S1x1024_S256x1024 (ix2 p j) = _
  rw [matmul_d1, matmul_d1, broadcastTo_1b_ab_apply, broadcastTo_1b_ab_apply]
  rfl

/-- The gates' block before its last bias, at (p, j): the input row's product and bias, plus the candidate row's
    product. -/
theorem pay6_row (p : Fin 256) (j : Fin 3072) :
    k0_pay6 (F := Ideal) x0 x1 w3 w4 w5 w6 w7 w8 w9 (ix2 p j)
      = ((∑ k : Fin 1024, rowOf x0 p k * mat w7 k j) + vec1 w8 j)
        + ∑ k : Fin 1024, cand (params w3 w4 w5 w6 w7 w8 w9 w10) (rowOf x0 p) (rowOf x1 p) k * mat w9 k j := by
  unfold k0_pay6 k0_pay4
  simp only [shapeCast_self]
  show (matmul (F := Ideal) dot_S256x1024_S1024x3072_S256x3072_1_0_0_1_n_n none (truncf .bf16 x0 bitsLt_bf16_f32) w7
            (constant (F := Ideal) S256x3072 .f32 0x00000000#32) (ix2 p j)
          + broadcastTo S256x3072 w8 broadcasts_S1x3072_S256x3072 (ix2 p j))
        + matmul (F := Ideal) dot_S256x1024_S1024x3072_S256x3072_1_0_0_1_n_n none
            (truncf .bf16 (k0_pay5 (F := Ideal) x0 x1 w3 w4 w5 w6) bitsLt_bf16_f32) w9
            (constant (F := Ideal) S256x3072 .f32 0x00000000#32) (ix2 p j) = _
  rw [matmul_d3, matmul_d3, broadcastTo_1b_ab_apply]
  refine congrArg₂ (· + ·) rfl (Finset.sum_congr rfl fun k _ => ?_)
  show k0_pay5 (F := Ideal) x0 x1 w3 w4 w5 w6 (ix2 p k) * _ = _
  rw [cand_row x0 x1 w3 w4 w5 w6 w7 w8 w9 w10]

/-- The gate block at (p, j) is the cell's gate row of the block's row p at column j. -/
theorem gate_row (p : Fin 256) (j : Fin 3072) :
    k0_pay1 (F := Ideal) (k0_pay6 x0 x1 w3 w4 w5 w6 w7 w8 w9) w10 (ix2 p j)
      = gate (params w3 w4 w5 w6 w7 w8 w9 w10) (rowOf x0 p) (rowOf x1 p) j := by
  unfold k0_pay1
  simp only [shapeCast_self]
  show Ideal.logistic (k0_pay6 (F := Ideal) x0 x1 w3 w4 w5 w6 w7 w8 w9 (ix2 p j)
      + broadcastTo S256x3072 w10 broadcasts_S1x3072_S256x3072 (ix2 p j)) = _
  rw [pay6_row x0 x1 w3 w4 w5 w6 w7 w8 w9 w10, broadcastTo_1b_ab_apply]
  rfl

/-- The first third of the gate block, at (p, q), is the input gate of the block's row p at column q. -/
theorem gi_row (p : Fin 256) (q : Fin 1024) :
    extractStridedSlice S256x1024 ![0, 0] (k0_pay1 (F := Ideal) (k0_pay6 x0 x1 w3 w4 w5 w6 w7 w8 w9) w10)
        slices_S256x3072_o0_0_S256x1024 (ix2 p q)
      = gi (params w3 w4 w5 w6 w7 w8 w9 w10) (rowOf x0 p) (rowOf x1 p) q :=
  (slice2_axis1_apply 0 (k0_pay1 (F := Ideal) (k0_pay6 x0 x1 w3 w4 w5 w6 w7 w8 w9) w10)
      slices_S256x3072_o0_0_S256x1024 p q ⟨q.val, by omega⟩ (Nat.zero_add _).symm).trans
    (gate_row x0 x1 w3 w4 w5 w6 w7 w8 w9 w10 p _)

/-- The second third of the gate block, at (p, q), is the output gate of the block's row p at column q. -/
theorem go_row (p : Fin 256) (q : Fin 1024) :
    extractStridedSlice S256x1024 ![0, 1024] (k0_pay1 (F := Ideal) (k0_pay6 x0 x1 w3 w4 w5 w6 w7 w8 w9) w10)
        slices_S256x3072_o0_1024_S256x1024 (ix2 p q)
      = go (params w3 w4 w5 w6 w7 w8 w9 w10) (rowOf x0 p) (rowOf x1 p) q :=
  (slice2_axis1_apply 1024 (k0_pay1 (F := Ideal) (k0_pay6 x0 x1 w3 w4 w5 w6 w7 w8 w9) w10)
      slices_S256x3072_o0_1024_S256x1024 p q ⟨1024 + q.val, by omega⟩ rfl).trans
    (gate_row x0 x1 w3 w4 w5 w6 w7 w8 w9 w10 p _)

/-- The last third of the gate block, at (p, q), is the forget gate of the block's row p at column q. -/
theorem gf_row (p : Fin 256) (q : Fin 1024) :
    extractStridedSlice S256x1024 ![0, 2048] (k0_pay1 (F := Ideal) (k0_pay6 x0 x1 w3 w4 w5 w6 w7 w8 w9) w10)
        slices_S256x3072_o0_2048_S256x1024 (ix2 p q)
      = gf (params w3 w4 w5 w6 w7 w8 w9 w10) (rowOf x0 p) (rowOf x1 p) q :=
  (slice2_axis1_apply 2048 (k0_pay1 (F := Ideal) (k0_pay6 x0 x1 w3 w4 w5 w6 w7 w8 w9) w10)
      slices_S256x3072_o0_2048_S256x1024 p q ⟨2048 + q.val, by omega⟩ rfl).trans
    (gate_row x0 x1 w3 w4 w5 w6 w7 w8 w9 w10 p _)

/-- Entry (p, q) of the value the body stores as the new state is the cell's new state of the block's row p at column q. -/
theorem state_row (p : Fin 256) (q : Fin 1024) :
    k0_pay2 (F := Ideal) x2 (k0_pay5 x0 x1 w3 w4 w5 w6) (k0_pay6 x0 x1 w3 w4 w5 w6 w7 w8 w9) w10 (ix2 p q)
      = cNew (params w3 w4 w5 w6 w7 w8 w9 w10) (rowOf x0 p) (rowOf x1 p) (rowOf x2 p) q := by
  unfold k0_pay2
  show extractStridedSlice S256x1024 ![0, 2048] (k0_pay1 (F := Ideal) (k0_pay6 x0 x1 w3 w4 w5 w6 w7 w8 w9) w10)
          slices_S256x3072_o0_2048_S256x1024 (ix2 p q) * x2 (ix2 p q)
      + extractStridedSlice S256x1024 ![0, 0] (k0_pay1 (F := Ideal) (k0_pay6 x0 x1 w3 w4 w5 w6 w7 w8 w9) w10)
          slices_S256x3072_o0_0_S256x1024 (ix2 p q) * Ideal.tanh (k0_pay5 (F := Ideal) x0 x1 w3 w4 w5 w6 (ix2 p q)) = _
  rw [gf_row x0 x1 w3 w4 w5 w6 w7 w8 w9 w10, gi_row x0 x1 w3 w4 w5 w6 w7 w8 w9 w10,
    cand_row x0 x1 w3 w4 w5 w6 w7 w8 w9 w10]
  rfl

/-- Entry (p, q) of the value the body stores as the new hidden block is the cell's new hidden row of the block's row p
    at column q. -/
theorem hidden_row (p : Fin 256) (q : Fin 1024) :
    k0_pay3 (F := Ideal) x2 (k0_pay5 x0 x1 w3 w4 w5 w6) (k0_pay6 x0 x1 w3 w4 w5 w6 w7 w8 w9) w10 (ix2 p q)
      = hNew (params w3 w4 w5 w6 w7 w8 w9 w10) (rowOf x0 p) (rowOf x1 p) (rowOf x2 p) q := by
  unfold k0_pay3
  show Ideal.tanh (k0_pay2 (F := Ideal) x2 (k0_pay5 x0 x1 w3 w4 w5 w6) (k0_pay6 x0 x1 w3 w4 w5 w6 w7 w8 w9) w10 (ix2 p q))
      * extractStridedSlice S256x1024 ![0, 1024] (k0_pay1 (F := Ideal) (k0_pay6 x0 x1 w3 w4 w5 w6 w7 w8 w9) w10)
          slices_S256x3072_o0_1024_S256x1024 (ix2 p q) = _
  rw [state_row, go_row x0 x1 w3 w4 w5 w6 w7 w8 w9 w10]
  rfl

end Cert.KernelRows

end
-- ==== Proof.KernelIdealArrays.lean ====
/-
  The two result arrays after the run, as functions of the arguments.

  Grid point t handles batch rows 256·t … 256·t + 255: its input, hidden and state blocks are those rows of the three
  batch arguments, and every weight or bias window's block is its whole array at every point. So what point t writes
  back to the new-state array is, at row p and column q of the block, the cell's new state of batch row 256·t + p at
  column q, and likewise for the new hidden array. The sixteen blocks tile the 4096 rows, so each result array ends
  holding the cell's value of its own batch row at every index: `stateArr` and `hiddenArr`.
-/
import proofs.«167227_j49349174231639_1_alg».proof.Proof.KernelIdealBody
import proofs.«167227_j49349174231639_1_alg».proof.Proof.KernelIdealOperands
import proofs.«167227_j49349174231639_1_alg».proof.Proof.KernelRows
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Entry Cert.KernelIdeal.Body Cert.KernelIdeal.Operands Cert.Cell

variable (m : (ℓ : Loc nD τ sig) → Buf (Elt Ideal) ℓ) (ρ : Dev nD → PrngReg)

/-! ## The results as functions of the arguments -/

/-- The cell's parameters read off the arguments: the candidate's matrices and biases are arguments, the gates' are
    the gate arguments set side by side or end to end. -/
def params (c : Dev nD) : Params :=
  paramsVec (m ((c : Thread nD τ).loc main_arg3)) (m ((c : Thread nD τ).loc main_arg5)) (m ((c : Thread nD τ).loc main_arg4)) (m ((c : Thread nD τ).loc main_arg6)) (gateMatX m c) (gateMatH m c) (gateBiasX m c) (gateBiasH m c)

/-- The new state of every batch row. -/
def stateArr (c : Dev nD) : S4096x1024.Idx → EReal := fun i =>
  cNew (params m c) (rowOf (m ((c : Thread nD τ).loc main_arg0)) (i 0)) (rowOf (m ((c : Thread nD τ).loc main_arg1)) (i 0)) (rowOf (m ((c : Thread nD τ).loc main_arg2)) (i 0)) (i 1)

/-- The new hidden row of every batch row. -/
def hiddenArr (c : Dev nD) : S4096x1024.Idx → EReal := fun i =>
  hNew (params m c) (rowOf (m ((c : Thread nD τ).loc main_arg0)) (i 0)) (rowOf (m ((c : Thread nD τ).loc main_arg1)) (i 0)) (rowOf (m ((c : Thread nD τ).loc main_arg2)) (i 0)) (i 1)

/-! ## The blocks at a grid point -/

theorem origin : (![0, 0] : Fin 2 → Nat) = fun _ => 0 := funext fun a => by fin_cases a <;> rfl

/-- The printed index maps over the sixteen points: a batch window's block index is (t, 0), a weight or bias window's
    is (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

theorem t_lt (t : Fin cfg0.N) : t.val < 16 := Nat.lt_of_lt_of_eq t.isLt N_0

/-- Row p of point t's block is batch row 256·t + p. -/
def batchRow (t : Fin cfg0.N) (p : Fin 256) : Fin 4096 := ⟨t.val * 256 + p.val, by have := t_lt t; have := p.isLt; omega⟩

/-- A batch window's block at point t, at (p, k), is the batch argument at (256·t + p, k). -/
theorem batch_block (c : Dev nD) (t : Fin cfg0.N) (p : Fin 256) (k : Fin 1024) :
    (iblk m c 0 t : S256x1024.Idx → EReal) (ix2 p k) = (m ((c : Thread nD τ).loc main_arg0)) (ix2 (batchRow t p) k)
    ∧ (iblk m c 1 t : S256x1024.Idx → EReal) (ix2 p k) = (m ((c : Thread nD τ).loc main_arg1)) (ix2 (batchRow t p) k)
    ∧ (iblk m c 2 t : S256x1024.Idx → EReal) (ix2 p k) = (m ((c : Thread nD τ).loc main_arg2)) (ix2 (batchRow t p) k) := by
  obtain ⟨⟨a0, b0⟩, ⟨a1, b1⟩, ⟨a2, b2⟩, -⟩ := index_facts t
  refine ⟨?_, ?_, ?_⟩
  · rw [← V_main_arg0 m c]
    show V m c main_arg0 (((cfg0.win 0).blk t).view.emb (ix2 p k)) = V m c main_arg0 (ix2 (batchRow t p) k)
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 1024 + 1 * k.val = k.val; omega
  · rw [← V_main_arg1 m c]
    show V m c main_arg1 (((cfg0.win 1).blk t).view.emb (ix2 p k)) = V m c main_arg1 (ix2 (batchRow t p) k)
    refine congrArg _ (funext fun a => Fin.ext ?_)
    match a with
    | ⟨0, _⟩ => show win0_1.index t (0 : Fin 2) * 256 + 1 * p.val = t.val * 256 + p.val; omega
    | ⟨1, _⟩ => show win0_1.index t (1 : Fin 2) * 1024 + 1 * k.val = k.val; omega
  · rw [← V_main_arg2 m c]
    show V m c main_arg2 (((cfg0.win 2).blk t).view.emb (ix2 p k)) = V m c main_arg2 (ix2 (batchRow t p) k)
    refine congrArg _ (funext fun a => Fin.ext ?_)
    match a with
    | ⟨0, _⟩ => show win0_2.index t (0 : Fin 2) * 256 + 1 * p.val = t.val * 256 + p.val; omega
    | ⟨1, _⟩ => show win0_2.index t (1 : Fin 2) * 1024 + 1 * k.val = k.val; omega

/-- Window 3's block at any point is its whole array. -/
theorem whole_block_3 (c : Dev nD) (t : Fin cfg0.N) (a : Fin 1024) (b : Fin 1024) :
    (iblk m c 3 t : S1024x1024.Idx → EReal) (ix2 a b) = (V m c main_v8 : S1024x1024.Idx → EReal) (ix2 a b) := by
  obtain ⟨e0, e1⟩ := (index_facts t).2.2.2.1
  show V m c main_v8 (((cfg0.win 3).blk t).view.emb (ix2 a b)) = V m c main_v8 (ix2 a b)
  refine congrArg _ (funext fun d => Fin.ext ?_)
  match d with
  | ⟨0, _⟩ => show win0_3.index t (0 : Fin 2) * 1024 + 1 * a.val = a.val; omega
  | ⟨1, _⟩ => show win0_3.index t (1 : Fin 2) * 1024 + 1 * b.val = b.val; omega
/-- Window 4's block at any point is its whole array. -/
theorem whole_block_4 (c : Dev nD) (t : Fin cfg0.N) (a : Fin 1) (b : Fin 1024) :
    (iblk m c 4 t : S1x1024.Idx → EReal) (ix2 a b) = (V m c main_v10 : S1x1024.Idx → EReal) (ix2 a b) := by
  obtain ⟨e0, e1⟩ := (index_facts t).2.2.2.2.1
  show V m c main_v10 (((cfg0.win 4).blk t).view.emb (ix2 a b)) = V m c main_v10 (ix2 a b)
  refine congrArg _ (funext fun d => Fin.ext ?_)
  match d with
  | ⟨0, _⟩ => show win0_4.index t (0 : Fin 2) * 1 + 1 * a.val = a.val; omega
  | ⟨1, _⟩ => show win0_4.index t (1 : Fin 2) * 1024 + 1 * b.val = b.val; omega
/-- Window 5's block at any point is its whole array. -/
theorem whole_block_5 (c : Dev nD) (t : Fin cfg0.N) (a : Fin 1024) (b : Fin 1024) :
    (iblk m c 5 t : S1024x1024.Idx → EReal) (ix2 a b) = (V m c main_v9 : S1024x1024.Idx → EReal) (ix2 a b) := by
  obtain ⟨e0, e1⟩ := (index_facts t).2.2.2.2.2.1
  show V m c main_v9 (((cfg0.win 5).blk t).view.emb (ix2 a b)) = V m c main_v9 (ix2 a b)
  refine congrArg _ (funext fun d => Fin.ext ?_)
  match d with
  | ⟨0, _⟩ => show win0_5.index t (0 : Fin 2) * 1024 + 1 * a.val = a.val; omega
  | ⟨1, _⟩ => show win0_5.index t (1 : Fin 2) * 1024 + 1 * b.val = b.val; omega
/-- Window 6's block at any point is its whole array. -/
theorem whole_block_6 (c : Dev nD) (t : Fin cfg0.N) (a : Fin 1) (b : Fin 1024) :
    (iblk m c 6 t : S1x1024.Idx → EReal) (ix2 a b) = (V m c main_v11 : S1x1024.Idx → EReal) (ix2 a b) := by
  obtain ⟨e0, e1⟩ := (index_facts t).2.2.2.2.2.2.1
  show V m c main_v11 (((cfg0.win 6).blk t).view.emb (ix2 a b)) = V m c main_v11 (ix2 a b)
  refine congrArg _ (funext fun d => Fin.ext ?_)
  match d with
  | ⟨0, _⟩ => show win0_6.index t (0 : Fin 2) * 1 + 1 * a.val = a.val; omega
  | ⟨1, _⟩ => show win0_6.index t (1 : Fin 2) * 1024 + 1 * b.val = b.val; omega
/-- Window 7's block at any point is its whole array. -/
theorem whole_block_7 (c : Dev nD) (t : Fin cfg0.N) (a : Fin 1024) (b : Fin 3072) :
    (iblk m c 7 t : S1024x3072.Idx → EReal) (ix2 a b) = (V m c main_v1 : S1024x3072.Idx → EReal) (ix2 a b) := by
  obtain ⟨e0, e1⟩ := (index_facts t).2.2.2.2.2.2.2.1
  show V m c main_v1 (((cfg0.win 7).blk t).view.emb (ix2 a b)) = V m c main_v1 (ix2 a b)
  refine congrArg _ (funext fun d => Fin.ext ?_)
  match d with
  | ⟨0, _⟩ => show win0_7.index t (0 : Fin 2) * 1024 + 1 * a.val = a.val; omega
  | ⟨1, _⟩ => show win0_7.index t (1 : Fin 2) * 3072 + 1 * b.val = b.val; omega
/-- Window 8's block at any point is its whole array. -/
theorem whole_block_8 (c : Dev nD) (t : Fin cfg0.N) (a : Fin 1) (b : Fin 3072) :
    (iblk m c 8 t : S1x3072.Idx → EReal) (ix2 a b) = (V m c main_v3 : S1x3072.Idx → EReal) (ix2 a b) := by
  obtain ⟨e0, e1⟩ := (index_facts t).2.2.2.2.2.2.2.2.1
  show V m c main_v3 (((cfg0.win 8).blk t).view.emb (ix2 a b)) = V m c main_v3 (ix2 a b)
  refine congrArg _ (funext fun d => Fin.ext ?_)
  match d with
  | ⟨0, _⟩ => show win0_8.index t (0 : Fin 2) * 1 + 1 * a.val = a.val; omega
  | ⟨1, _⟩ => show win0_8.index t (1 : Fin 2) * 3072 + 1 * b.val = b.val; omega
/-- Window 9's block at any point is its whole array. -/
theorem whole_block_9 (c : Dev nD) (t : Fin cfg0.N) (a : Fin 1024) (b : Fin 3072) :
    (iblk m c 9 t : S1024x3072.Idx → EReal) (ix2 a b) = (V m c main_v5 : S1024x3072.Idx → EReal) (ix2 a b) := by
  obtain ⟨e0, e1⟩ := (index_facts t).2.2.2.2.2.2.2.2.2.1
  show V m c main_v5 (((cfg0.win 9).blk t).view.emb (ix2 a b)) = V m c main_v5 (ix2 a b)
  refine congrArg _ (funext fun d => Fin.ext ?_)
  match d with
  | ⟨0, _⟩ => show win0_9.index t (0 : Fin 2) * 1024 + 1 * a.val = a.val; omega
  | ⟨1, _⟩ => show win0_9.index t (1 : Fin 2) * 3072 + 1 * b.val = b.val; omega
/-- Window 10's block at any point is its whole array. -/
theorem whole_block_10 (c : Dev nD) (t : Fin cfg0.N) (a : Fin 1) (b : Fin 3072) :
    (iblk m c 10 t : S1x3072.Idx → EReal) (ix2 a b) = (V m c main_v7 : S1x3072.Idx → EReal) (ix2 a b) := by
  obtain ⟨e0, e1⟩ := (index_facts t).2.2.2.2.2.2.2.2.2.2.1
  show V m c main_v7 (((cfg0.win 10).blk t).view.emb (ix2 a b)) = V m c main_v7 (ix2 a b)
  refine congrArg _ (funext fun d => Fin.ext ?_)
  match d with
  | ⟨0, _⟩ => show win0_10.index t (0 : Fin 2) * 1 + 1 * a.val = a.val; omega
  | ⟨1, _⟩ => show win0_10.index t (1 : Fin 2) * 3072 + 1 * b.val = b.val; omega

/-- The parameters the body holds at any point are the parameters read off the arguments. -/
theorem params_block (c : Dev nD) (t : Fin cfg0.N) :
    KernelRows.params (iblk m c 3 t) (iblk m c 4 t) (iblk m c 5 t) (iblk m c 6 t) (iblk m c 7 t) (iblk m c 8 t) (iblk m c 9 t) (iblk m c 10 t)
      = params m c := by
  unfold KernelRows.params params paramsVec1 paramsVec
  congr 1
  · funext k j; exact (whole_block_3 m c t k j).trans (candMatX_at m c k j)
  · funext k j; exact (whole_block_5 m c t k j).trans (candMatH_at m c k j)
  · funext j; exact (whole_block_4 m c t 0 j).trans (candBiasX_at m c j)
  · funext j; exact (whole_block_6 m c t 0 j).trans (candBiasH_at m c j)
  · funext k j; exact (whole_block_7 m c t k j).trans (gateMatX_at m c k j)
  · funext k j; exact (whole_block_9 m c t k j).trans (gateMatH_at m c k j)
  · funext j; exact (whole_block_8 m c t 0 j).trans (gateBiasX_at m c j)
  · funext j; exact (whole_block_10 m c t 0 j).trans (gateBiasH_at m c j)

/-- The three batch rows the body holds at row p of point t's block are batch row 256·t + p of the arguments. -/
theorem rows_block (c : Dev nD) (t : Fin cfg0.N) (p : Fin 256) :
    rowOf (iblk m c 0 t : S256x1024.Idx → EReal) p = rowOf (m ((c : Thread nD τ).loc main_arg0)) (batchRow t p)
    ∧ rowOf (iblk m c 1 t : S256x1024.Idx → EReal) p = rowOf (m ((c : Thread nD τ).loc main_arg1)) (batchRow t p)
    ∧ rowOf (iblk m c 2 t : S256x1024.Idx → EReal) p = rowOf (m ((c : Thread nD τ).loc main_arg2)) (batchRow t p) :=
  ⟨funext fun k => (batch_block m c t p k).1, funext fun k => (batch_block m c t p k).2.1, funext fun k => (batch_block m c t p k).2.2⟩

/-! ## What a point writes back -/

/-- An output block's index (p, q) at point t is the array's index (256·t + p, q). -/
theorem out_index_12 (t : Fin cfg0.N) (p : Fin 256) (q : Fin 1024) :
    ((cfg0.win 12).blk t).view.emb (ix2 p q) = (ix2 (batchRow t p) q : S4096x1024.Idx) := by
  obtain ⟨e0, e1⟩ := (index_facts t).2.2.2.2.2.2.2.2.2.2.2.2
  refine funext fun d => Fin.ext ?_
  match d with
  | ⟨0, _⟩ => show win0_12.index t (0 : Fin 2) * 256 + 1 * p.val = t.val * 256 + p.val; omega
  | ⟨1, _⟩ => show win0_12.index t (1 : Fin 2) * 1024 + 1 * q.val = q.val; omega
theorem out_index_11 (t : Fin cfg0.N) (p : Fin 256) (q : Fin 1024) :
    ((cfg0.win 11).blk t).view.emb (ix2 p q) = (ix2 (batchRow t p) q : S4096x1024.Idx) := by
  obtain ⟨e0, e1⟩ := (index_facts t).2.2.2.2.2.2.2.2.2.2.2.1
  refine funext fun d => Fin.ext ?_
  match d with
  | ⟨0, _⟩ => show win0_11.index t (0 : Fin 2) * 256 + 1 * p.val = t.val * 256 + p.val; omega
  | ⟨1, _⟩ => show win0_11.index t (1 : Fin 2) * 1024 + 1 * q.val = q.val; omega

/-- What point t writes back to the new-state array is block t of `stateArr`. -/
theorem state_flushed (c : Dev nD) (t : Fin cfg0.N) :
    (dats m 0 c).flushed 12 t = ((cfg0.win 12).blk t).view.read (Elt Ideal) (stateArr m c) := by
  show (cfg0.win 12).cut (grid0.coords t) ((dats m 0 c).after 12 t) = _
  rw [after0_12]
  unfold cOut candBlk gateBlk
  rw [View.canon_unit_zero origin]
  simp only [View.ld_unit_zero (S := S256x1024) origin, View.ld_unit_zero (S := S1024x1024) origin, View.ld_unit_zero (S := S1x1024) origin,
    View.ld_unit_zero (S := S1024x3072) origin, View.ld_unit_zero (S := S1x3072) origin]
  funext j
  obtain ⟨p, q, rfl⟩ : ∃ (p : Fin 256) (q : Fin 1024), j = ix2 p q := ⟨j 0, j 1, eq_ix2 j⟩
  show k0_pay2 (F := Ideal) (iblk m c 2 t) (k0_pay5 (iblk m c 0 t) (iblk m c 1 t) (iblk m c 3 t) (iblk m c 4 t) (iblk m c 5 t) (iblk m c 6 t))
      (k0_pay6 (iblk m c 0 t) (iblk m c 1 t) (iblk m c 3 t) (iblk m c 4 t) (iblk m c 5 t) (iblk m c 6 t) (iblk m c 7 t) (iblk m c 8 t) (iblk m c 9 t)) (iblk m c 10 t) (ix2 p q)
    = stateArr m c (((cfg0.win 12).blk t).view.emb (ix2 p q))
  refine (KernelRows.state_row (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [params_block, out_index_12]
  obtain ⟨r0, r1, r2⟩ := rows_block m c t p
  show cNew (params m c) (rowOf (iblk m c 0 t : S256x1024.Idx → EReal) p) (rowOf (iblk m c 1 t : S256x1024.Idx → EReal) p) (rowOf (iblk m c 2 t : S256x1024.Idx → EReal) p) q
    = cNew (params m c) (rowOf (m ((c : Thread nD τ).loc main_arg0)) (batchRow t p)) (rowOf (m ((c : Thread nD τ).loc main_arg1)) (batchRow t p)) (rowOf (m ((c : Thread nD τ).loc main_arg2)) (batchRow t p)) q
  rw [r0, r1, r2]

/-- What point t writes back to the new hidden array is block t of `hiddenArr`. -/
theorem hidden_flushed (c : Dev nD) (t : Fin cfg0.N) :
    (dats m 0 c).flushed 11 t = ((cfg0.win 11).blk t).view.read (Elt Ideal) (hiddenArr m c) := by
  show (cfg0.win 11).cut (grid0.coords t) ((dats m 0 c).after 11 t) = _
  rw [after0_11]
  unfold hOut candBlk gateBlk
  rw [View.canon_unit_zero origin]
  simp only [View.ld_unit_zero (S := S256x1024) origin, View.ld_unit_zero (S := S1024x1024) origin, View.ld_unit_zero (S := S1x1024) origin,
    View.ld_unit_zero (S := S1024x3072) origin, View.ld_unit_zero (S := S1x3072) origin]
  funext j
  obtain ⟨p, q, rfl⟩ : ∃ (p : Fin 256) (q : Fin 1024), j = ix2 p q := ⟨j 0, j 1, eq_ix2 j⟩
  show k0_pay3 (F := Ideal) (iblk m c 2 t) (k0_pay5 (iblk m c 0 t) (iblk m c 1 t) (iblk m c 3 t) (iblk m c 4 t) (iblk m c 5 t) (iblk m c 6 t))
      (k0_pay6 (iblk m c 0 t) (iblk m c 1 t) (iblk m c 3 t) (iblk m c 4 t) (iblk m c 5 t) (iblk m c 6 t) (iblk m c 7 t) (iblk m c 8 t) (iblk m c 9 t)) (iblk m c 10 t) (ix2 p q)
    = hiddenArr m c (((cfg0.win 11).blk t).view.emb (ix2 p q))
  refine (KernelRows.hidden_row (iblk m c 0 t) (iblk m c 1 t) (iblk m c 2 t) (iblk m c 3 t) (iblk m c 4 t) (iblk m c 5 t) (iblk m c 6 t) (iblk m c 7 t) (iblk m c 8 t) (iblk m c 9 t) (iblk m c 10 t) p q).trans ?_
  rw [params_block, out_index_11]
  obtain ⟨r0, r1, r2⟩ := rows_block m c t p
  show hNew (params m c) (rowOf (iblk m c 0 t : S256x1024.Idx → EReal) p) (rowOf (iblk m c 1 t : S256x1024.Idx → EReal) p) (rowOf (iblk m c 2 t : S256x1024.Idx → EReal) p) q
    = hNew (params m c) (rowOf (m ((c : Thread nD τ).loc main_arg0)) (batchRow t p)) (rowOf (m ((c : Thread nD τ).loc main_arg1)) (batchRow t p)) (rowOf (m ((c : Thread nD τ).loc main_arg2)) (batchRow t p)) q
  rw [r0, r1, r2]

/-! ## The blocks tile the arrays -/

/-- An index of the array lies in point t's block of window 12 iff each coordinate lies in the block's range. -/
theorem mem_block_12 (t : Fin cfg0.N) (i : S4096x1024.Idx) :
    i ∈ ((cfg0.win 12).blk t).view.set ↔ ∀ a : Fin 2, win0_12.index t a * S256x1024.size a ≤ (i a).val ∧ (i a).val < win0_12.index t a * S256x1024.size a + S256x1024.size a := by
  show i ∈ ((View.whole main_v12_1).slice (win0_12.rect t)).set ↔ _
  rw [View.set_slice_whole, Rect.mem_set_unit]
  exact Iff.rfl

/-- Every index of the array lies in the block of the point that handles its batch row: row r belongs to point r / 256. -/
theorem cover_12 (i : S4096x1024.Idx) : ∃ t : Fin cfg0.N, (cfg0.win 12).flush t = true ∧ i ∈ ((cfg0.win 12).blk t).view.set := by
  have h0 : (i 0).val < 4096 := (i 0).isLt
  have h1 : (i 1).val < 1024 := (i 1).isLt
  have ht : (i 0).val / 256 < cfg0.N := Nat.lt_of_lt_of_eq (by omega : (i 0).val / 256 < 16) N_0.symm
  refine ⟨⟨(i 0).val / 256, ht⟩, flush0_12 _, ?_⟩
  rw [mem_block_12]
  obtain ⟨e0, e1⟩ := (index_facts ⟨(i 0).val / 256, ht⟩).2.2.2.2.2.2.2.2.2.2.2.2
  have e0' : win0_12.index ⟨(i 0).val / 256, ht⟩ (0 : Fin 2) = (i 0).val / 256 := e0
  intro a
  match a with
  | ⟨0, _⟩ =>
    show win0_12.index ⟨(i 0).val / 256, ht⟩ (0 : Fin 2) * 256 ≤ (i 0).val ∧ (i 0).val < win0_12.index ⟨(i 0).val / 256, ht⟩ (0 : Fin 2) * 256 + 256
    omega
  | ⟨1, _⟩ =>
    show win0_12.index ⟨(i 0).val / 256, ht⟩ (1 : Fin 2) * 1024 ≤ (i 1).val ∧ (i 1).val < win0_12.index ⟨(i 0).val / 256, ht⟩ (1 : Fin 2) * 1024 + 1024
    omega

/-- An index of the array lies in point t's block of window 11 iff each coordinate lies in the block's range. -/
theorem mem_block_11 (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v12_0).slice (win0_11.rect t)).set ↔ _
  rw [View.set_slice_whole, Rect.mem_set_unit]
  exact Iff.rfl

/-- Every index of the array lies in the block of the point that handles its batch row: row r belongs to point r / 256. -/
theorem cover_11 (i : S4096x1024.Idx) : ∃ t : Fin cfg0.N, (cfg0.win 11).flush t = true ∧ i ∈ ((cfg0.win 11).blk t).view.set := by
  have h0 : (i 0).val < 4096 := (i 0).isLt
  have h1 : (i 1).val < 1024 := (i 1).isLt
  have ht : (i 0).val / 256 < cfg0.N := Nat.lt_of_lt_of_eq (by omega : (i 0).val / 256 < 16) N_0.symm
  refine ⟨⟨(i 0).val / 256, ht⟩, flush0_11 _, ?_⟩
  rw [mem_block_11]
  obtain ⟨e0, e1⟩ := (index_facts ⟨(i 0).val / 256, ht⟩).2.2.2.2.2.2.2.2.2.2.2.1
  have e0' : win0_11.index ⟨(i 0).val / 256, ht⟩ (0 : Fin 2) = (i 0).val / 256 := e0
  intro a
  match a with
  | ⟨0, _⟩ =>
    show win0_11.index ⟨(i 0).val / 256, ht⟩ (0 : Fin 2) * 256 ≤ (i 0).val ∧ (i 0).val < win0_11.index ⟨(i 0).val / 256, ht⟩ (0 : Fin 2) * 256 + 256
    omega
  | ⟨1, _⟩ =>
    show win0_11.index ⟨(i 0).val / 256, ht⟩ (1 : Fin 2) * 1024 ≤ (i 1).val ∧ (i 1).val < win0_11.index ⟨(i 0).val / 256, ht⟩ (1 : Fin 2) * 1024 + 1024
    omega

/-- The new-state array ends holding `stateArr`. -/
theorem state_final (c : Dev nD) : (dats m 0 c).arrAt 12 cfg0.N = stateArr m c :=
  (dats m 0 c).arrAt_eq_of_cover 12 (stateArr m c) (fun t _ => state_flushed m c t) cover_12

/-- The new hidden array ends holding `hiddenArr`. -/
theorem hidden_final (c : Dev nD) : (dats m 0 c).arrAt 11 cfg0.N = hiddenArr m c :=
  (dats m 0 c).arrAt_eq_of_cover 11 (hiddenArr m c) (fun t _ => hidden_flushed m c t) cover_11

/-! ## The run, read -/

/-- Every weakly fair execution of the kernel's @main terminates with the new hidden array at `hiddenArr`, the new
    state array at `stateArr`, and the nineteen arguments as launched. -/
theorem run : θ_run defs (onTc (τ := τ) (main (F := Ideal))) ⟨m, fun _ => 0, ρ⟩ (fun r => ∀ c : Dev nD,
      r.2.mem ((c.tc : Thread nD τ).loc main_v12_0) = hiddenArr m c
      ∧ r.2.mem ((c.tc : Thread nD τ).loc main_v12_1) = stateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1 11).trans (hidden_final m c), ((h c).1 12).trans (state_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Arrays

end
-- ==== Proof.RefRows.lean ====
/-
  The reference's two results, read one batch row at a time.
-/
import proofs.«167227_j49349174231639_1_alg».proof.Proof.Gen.ReferenceIdeal.Read
import proofs.«167227_j49349174231639_1_alg».proof.Proof.Cell

noncomputable section

open scoped BigOperators

namespace Cert.RefRows

open Cert.ReferenceIdeal Cert.ReferenceIdeal.Read Idealize.ShloMosaic Idealize.ShloMosaic.ValueIdx Cert.Cell

variable (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))

/-- The cell's parameters as the reference holds them: the candidate's matrices and biases are arguments, the gates'
    are the three gate arguments set side by side (matrices) or end to end (biases). -/
def params : Params :=
  paramsVec x3 x5 x4 x6 (val_main_v9 (F := Ideal) x7 x11 x15) (val_main_v11 (F := Ideal) x9 x13 x17)
    (val_main_v10 (F := Ideal) x8 x12 x16) (val_main_v12 (F := Ideal) x10 x14 x18)

/-! ## The index maps of the reference's operations at an entry (r, j)

  A contraction reads row `r` of its left operand and column `j` of its right operand; a bias broadcast along the
  batch axis reads its column `j`; a slice of the gate row reads the column shifted by the slice's offset. -/

theorem lidx_v0 (r : Fin 4096) (j k : Fin 1024) : lidx_main_v0 (ix2 r j) k = ix2 r k := by
  funext a; match a with | ⟨0, _⟩ => rfl | ⟨1, _⟩ => rfl
theorem ridx_v0 (r : Fin 4096) (j k : Fin 1024) : ridx_main_v0 (ix2 r j) k = ix2 k j := by
  funext a; match a with | ⟨0, _⟩ => rfl | ⟨1, _⟩ => rfl
theorem lidx_v4 (r : Fin 4096) (j k : Fin 1024) : lidx_main_v4 (ix2 r j) k = ix2 r k := by
  funext a; match a with | ⟨0, _⟩ => rfl | ⟨1, _⟩ => rfl
theorem ridx_v4 (r : Fin 4096) (j k : Fin 1024) : ridx_main_v4 (ix2 r j) k = ix2 k j := by
  funext a; match a with | ⟨0, _⟩ => rfl | ⟨1, _⟩ => rfl
theorem idx_v1_v2 (r : Fin 4096) (j : Fin 1024) : idx_main_v1 (idx_main_v2 (ix2 r j)) = ix1 j := by
  funext a; match a with | ⟨0, _⟩ => rfl
theorem idx_v6_v7 (r : Fin 4096) (j : Fin 1024) : idx_main_v6 (idx_main_v7 (ix2 r j)) = ix1 j := by
  funext a; match a with | ⟨0, _⟩ => rfl
theorem lidx_v13 (r : Fin 4096) (j : Fin 3072) (k : Fin 1024) : lidx_main_v13 (ix2 r j) k = ix2 r k := by
  funext a; match a with | ⟨0, _⟩ => rfl | ⟨1, _⟩ => rfl
theorem ridx_v13 (r : Fin 4096) (j : Fin 3072) (k : Fin 1024) : ridx_main_v13 (ix2 r j) k = ix2 k j := by
  funext a; match a with | ⟨0, _⟩ => rfl | ⟨1, _⟩ => rfl
theorem lidx_v17 (r : Fin 4096) (j : Fin 3072) (k : Fin 1024) : lidx_main_v17 (ix2 r j) k = ix2 r k := by
  funext a; match a with | ⟨0, _⟩ => rfl | ⟨1, _⟩ => rfl
theorem ridx_v17 (r : Fin 4096) (j : Fin 3072) (k : Fin 1024) : ridx_main_v17 (ix2 r j) k = ix2 k j := by
  funext a; match a with | ⟨0, _⟩ => rfl | ⟨1, _⟩ => rfl
theorem idx_v14_v15 (r : Fin 4096) (j : Fin 3072) : idx_main_v14 (idx_main_v15 (ix2 r j)) = ix1 j := by
  funext a; match a with | ⟨0, _⟩ => rfl
theorem idx_v19_v20 (r : Fin 4096) (j : Fin 3072) : idx_main_v19 (idx_main_v20 (ix2 r j)) = ix1 j := by
  funext a; match a with | ⟨0, _⟩ => rfl
theorem idx_v28 (r : Fin 4096) (q : Fin 1024) :
    idx_main_v28 (ix2 r q) = ix2 r (⟨q.val, by omega⟩ : Fin 3072) := by
  funext a; match a with | ⟨0, _⟩ => rfl | ⟨1, _⟩ => rfl
theorem idx_v29 (r : Fin 4096) (q : Fin 1024) :
    idx_main_v29 (ix2 r q) = ix2 r (⟨1024 + q.val, by omega⟩ : Fin 3072) := by
  funext a; match a with | ⟨0, _⟩ => rfl | ⟨1, _⟩ => rfl
theorem idx_v30 (r : Fin 4096) (q : Fin 1024) :
    idx_main_v30 (ix2 r q) = ix2 r (⟨2048 + q.val, by omega⟩ : Fin 3072) := by
  funext a; match a with | ⟨0, _⟩ => rfl | ⟨1, _⟩ => rfl

/-- The single-precision word `0x3F800000` is the number one. -/
theorem one_bits : FloatOps.ofBits (F := Ideal) .f32 0x3F800000#32 = (1 : EReal) := by
  rw [Ideal.ofBits_def]
  simp [Ideal.ofBits, Ideal.ieee, -EReal.coe_mul]
  norm_num

/-! ## The stages of the reference, one batch row at a time -/

/-- Entry (r, j) of the candidate stage is the cell's candidate of batch row r at column j. -/
theorem cand_row (r : Fin 4096) (j : Fin 1024) :
    val_main_v8 (F := Ideal) x0 x1 x3 x4 x5 x6 (ix2 r j)
      = cand (params x3 x4 x5 x6 x7 x8 x9 x10 x11 x12 x13 x14 x15 x16 x17 x18) (rowOf x0 r) (rowOf x1 r) j := by
  rw [val_main_v8_apply, val_main_v5_apply, val_main_v3_apply, val_main_v0_apply, val_main_v2_apply,
    val_main_v1_apply, val_main_v4_apply, val_main_v7_apply, val_main_v6_apply]
  simp only [lidx_v0, ridx_v0, lidx_v4, ridx_v4, idx_v1_v2, idx_v6_v7, Ideal.addf_def]
  rfl

/-- Entry (r, j) of the gates' pre-activation stage is the cell's pre-activation of batch row r at column j: its
    second contraction runs over the candidate stage's row r, which is the cell's candidate row. -/
theorem gatePre_row (r : Fin 4096) (j : Fin 3072) :
    val_main_v21 (F := Ideal) x0 x1 x3 x4 x5 x6 x7 x8 x9 x10 x11 x12 x13 x14 x15 x16 x17 x18 (ix2 r j)
      = gatePre (params x3 x4 x5 x6 x7 x8 x9 x10 x11 x12 x13 x14 x15 x16 x17 x18) (rowOf x0 r) (rowOf x1 r) j := by
  rw [val_main_v21_apply, val_main_v18_apply, val_main_v16_apply, val_main_v13_apply, val_main_v15_apply,
    val_main_v14_apply, val_main_v17_apply, val_main_v20_apply, val_main_v19_apply]
  simp only [lidx_v13, ridx_v13, lidx_v17, ridx_v17, idx_v14_v15, idx_v19_v20, Ideal.addf_def,
    cand_row x0 x1 x3 x4 x5 x6 x7 x8 x9 x10 x11 x12 x13 x14 x15 x16 x17 x18]
  rfl

/-- Entry (r, j) of the gate stage, `1 / (1 + exp (-pre))`, is the logistic function of the pre-activation. -/
theorem gate_row (r : Fin 4096) (j : Fin 3072) :
    val_main_v27 (F := Ideal) x0 x1 x3 x4 x5 x6 x7 x8 x9 x10 x11 x12 x13 x14 x15 x16 x17 x18 (ix2 r j)
      = gate (params x3 x4 x5 x6 x7 x8 x9 x10 x11 x12 x13 x14 x15 x16 x17 x18) (rowOf x0 r) (rowOf x1 r) j := by
  rw [val_main_v27_apply, val_main_v26_apply, val_main_cst_0_apply, val_main_v25_apply, val_main_v24_apply,
    val_main_cst_apply, val_main_v23_apply, val_main_v22_apply, gatePre_row x0 x1 x3 x4 x5 x6 x7 x8 x9 x10 x11 x12 x13 x14 x15 x16 x17 x18]
  simp only [one_bits, Ideal.hostDivf_def, Ideal.addf_def, Ideal.hostUnary_exp_def, Ideal.hostNegf_def,
    Ideal.negf_def]
  rfl

/-- Entry (r, q) of the reference's new state is the cell's new state of batch row r at column q. -/
theorem state_row (r : Fin 4096) (q : Fin 1024) :
    val_main_v34 (F := Ideal) x0 x1 x2 x3 x4 x5 x6 x7 x8 x9 x10 x11 x12 x13 x14 x15 x16 x17 x18 (ix2 r q)
      = cNew (params x3 x4 x5 x6 x7 x8 x9 x10 x11 x12 x13 x14 x15 x16 x17 x18) (rowOf x0 r) (rowOf x1 r) (rowOf x2 r) q := by
  rw [val_main_v34_apply, val_main_v31_apply, val_main_v33_apply, val_main_v30_apply, val_main_v28_apply,
    val_main_v32_apply, idx_v30, idx_v28, gate_row x0 x1 x3 x4 x5 x6 x7 x8 x9 x10 x11 x12 x13 x14 x15 x16 x17 x18, gate_row x0 x1 x3 x4 x5 x6 x7 x8 x9 x10 x11 x12 x13 x14 x15 x16 x17 x18, cand_row x0 x1 x3 x4 x5 x6 x7 x8 x9 x10 x11 x12 x13 x14 x15 x16 x17 x18]
  simp only [Ideal.addf_def, Ideal.mulf_def, Ideal.hostUnary_tanh_def]
  rfl

/-- Entry (r, q) of the reference's new hidden array is the cell's new hidden row of batch row r at column q. -/
theorem hidden_row (r : Fin 4096) (q : Fin 1024) :
    val_main_v36 (F := Ideal) x0 x1 x2 x3 x4 x5 x6 x7 x8 x9 x10 x11 x12 x13 x14 x15 x16 x17 x18 (ix2 r q)
      = hNew (params x3 x4 x5 x6 x7 x8 x9 x10 x11 x12 x13 x14 x15 x16 x17 x18) (rowOf x0 r) (rowOf x1 r) (rowOf x2 r) q := by
  rw [val_main_v36_apply, val_main_v35_apply, val_main_v29_apply, idx_v29, gate_row x0 x1 x3 x4 x5 x6 x7 x8 x9 x10 x11 x12 x13 x14 x15 x16 x17 x18,
    state_row x0 x1 x2 x3 x4 x5 x6 x7 x8 x9 x10 x11 x12 x13 x14 x15 x16 x17 x18]
  simp only [Ideal.mulf_def, Ideal.hostUnary_tanh_def]
  rfl

end Cert.RefRows

end
-- ==== Proof.lean ====
/-
  An LSTM-style cell on 4096 batch rows of width 1024: kernel against reference.

  Both programs compute, for every batch row with input row x, hidden row h and state row c,
    candidate = ((x·A + a) + h·B) + b,
    gates     = logistic(((x·Gx + gx) + candidate·Gh) + gh)     (one row of 3072: input, output, forget gate),
    new state = forget · c + input · tanh(candidate),
    new hidden = tanh(new state) · output,
  and return (new hidden, new state). Gx and Gh are the three gate matrices of a side set side by side, gx and gh the
  three gate biases end to end; both programs build them the same way from the same arguments.

  The kernel does this for 256 batch rows per grid point, sixteen points, with every weight resident; its matrix
  products take operands narrowed to bf16, which at the ideal instance is the identity, into a zero accumulator,
  which is the plain sum; its logistic is one operation where the reference spells 1 / (1 + exp(−·)), which is that
  operation's definition on the extended reals. Every sum is grouped the same way on both sides, so the two results
  agree index by index with no algebraic law beyond these readings: the kernel's arrays are read row by row in
  KernelRows and KernelIdealArrays, the reference's in RefRows, against the row functions of Cell.

  The three frames: the kernel's, at both instances, is the run of its one region (KernelBody, KernelIdealBody);
  the reference has no kernel and its frame is its run with the results dropped. Nothing was rewritten between the
  kernel and its idealization, so that conjunct is trivial.
-/
import proofs.«167227_j49349174231639_1_alg».proof.Defs
import proofs.«167227_j49349174231639_1_alg».proof.Proof.Gen.Kernel
import proofs.«167227_j49349174231639_1_alg».proof.Proof.Gen.KernelIdeal
import proofs.«167227_j49349174231639_1_alg».proof.Proof.Gen.ReferenceIdeal
import proofs.«167227_j49349174231639_1_alg».proof.Proof.Gen.Pre_finite_inputs
import proofs.«167227_j49349174231639_1_alg».proof.Proof.Gen.ReferenceIdeal.Run
import proofs.«167227_j49349174231639_1_alg».proof.Proof.Gen.ReferenceIdeal.Read
import proofs.«167227_j49349174231639_1_alg».proof.Proof.KernelBody
import proofs.«167227_j49349174231639_1_alg».proof.Proof.KernelIdealBody
import proofs.«167227_j49349174231639_1_alg».proof.Proof.KernelIdealArrays
import proofs.«167227_j49349174231639_1_alg».proof.Proof.RefRows
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Body.frame m ρ

theorem frame_kernelIdeal : Cert.frame_KernelIdeal := fun m ρ _ => Cert.KernelIdeal.Body.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section Agreement

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two launch memories hold the same nineteen arguments on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

/-- From agreeing arguments the reference's new hidden array is the kernel's: at (r, q) both are the cell's new hidden
    row of batch row r at column q, under the same parameters. -/
theorem hidden_agree (h : Agree m m' c) :
    Cert.ReferenceIdeal.Value.res_main_v36 m' c = Cert.KernelIdeal.Arrays.hiddenArr m c := by
  obtain ⟨h0, h1, h2, h3, h4, h5, h6, h7, h8, h9, h10, h11, h12, h13, h14, h15, h16, h17, h18⟩ := h
  rw [Cert.ReferenceIdeal.Read.val_main_v36_eq, h0, h1, h2, h3, h4, h5, h6, h7, h8, h9, h10, h11, h12, h13, h14, h15, h16, h17, h18]
  funext i
  obtain ⟨r, q, rfl⟩ : ∃ (r : Fin 4096) (q : Fin 1024), i = ix2 r q := ⟨i 0, i 1, eq_ix2 i⟩
  rw [Cert.RefRows.hidden_row]
  rfl

/-- Likewise the new state array. -/
theorem state_agree (h : Agree m m' c) :
    Cert.ReferenceIdeal.Value.res_main_v34 m' c = Cert.KernelIdeal.Arrays.stateArr m c := by
  obtain ⟨h0, h1, h2, h3, h4, h5, h6, h7, h8, h9, h10, h11, h12, h13, h14, h15, h16, h17, h18⟩ := h
  rw [Cert.ReferenceIdeal.Read.val_main_v34_eq, h0, h1, h2, h3, h4, h5, h6, h7, h8, h9, h10, h11, h12, h13, h14, h15, h16, h17, h18]
  funext i
  obtain ⟨r, q, rfl⟩ : ∃ (r : Fin 4096) (q : Fin 1024), i = ix2 r q := ⟨i 0, i 1, eq_ix2 i⟩
  rw [Cert.RefRows.state_row]
  rfl

end Agreement

/-- The kernel's run ends with its two result arrays at the cell's values of every batch row (KernelIdealArrays); the
    reference's run ends with its two results at its composed term, which from agreeing arguments is the same pair of
    arrays. -/
theorem algebraic : Cert.algebraic_KernelIdeal_ReferenceIdeal := by
  intro m ρ m' ρ' _ hagree
  refine ⟨fun c => Cert.KernelIdeal.Arrays.hiddenArr m c, fun c => Cert.KernelIdeal.Arrays.stateArr m c,
    Cert.KernelIdeal.Arrays.run m ρ, ?_⟩
  refine (θ_run Cert.ReferenceIdeal.defs _ _).mono (fun _ h c => ⟨(h c).1.trans (hidden_agree m m' c (hagree c)),
    (h c).2.1.trans (state_agree m m' c (hagree c)), (h c).2.2⟩) (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
